-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x00000000#32
  let main_v20 : FVec F S8192 .f32 := broadcastInDim S8192 ![] bcast_S_S8192 main_cst_7
  let main_v21 : IVec S8192 1 := cmpf .une main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S256x8192 : Shape := ⟨2, ![256, 8192]⟩
abbrev S256x1 : Shape := ⟨2, ![256, 1]⟩
abbrev S8192 : Shape := ⟨1, ![8192]⟩
abbrev S_ : Shape := ⟨0, ![]⟩
abbrev S1x256 : Shape := ⟨2, ![1, 256]⟩

abbrev nBuf : Space → Nat
  | .hbm => 16
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S256x256, .bf16⟩
  | .hbm, ⟨14, _⟩ => ⟨S8192x1, .f32⟩
  | .hbm, ⟨15, _⟩ => ⟨S8192x256, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S256x8192, .f32⟩
  | .local _ .vmem, ⟨5, _⟩ => ⟨S256x8192, .f32⟩
  | .local _ .vmem, ⟨6, _⟩ => ⟨S8192x256, .bf16⟩
  | .local _ .vmem, ⟨7, _⟩ => ⟨S256x1, .f32⟩
  | .local _ .vmem, ⟨8, _⟩ => ⟨S256x1, .f32⟩
  | .local _ .vmem, ⟨9, _⟩ => ⟨S256x256, .bf16⟩
  | .local _ .vmem, ⟨10, _⟩ => ⟨S256, .f32⟩
  | .local _ .vmem, ⟨11, _⟩ => ⟨S256x256, .f32⟩
  | .local _ .vmem, ⟨12, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S256x1_S256x1 : S256x1.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S8192x256.size a
  hwx1_5 : ∀ i : grid1.Coords, EltTy.bits .f32 = 32 ∨ (Rect.block (s := S8192x256) S256x256.size (cc1_transform_5 i) (hinb1_5 i)).WholeWords (EltTy.packing .f32)

variable [Facts₀]

def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.RealAlgebra.lean ====
/-
  The arithmetic of one graph-convolution aggregation, over the reals inside the extended reals.

  With `a j` a row of the adjacency matrix, `ξ j` a column of the features, `ν j` the reciprocal row sums
  and `νi` the reciprocal row sum of the row itself, the layer's aggregate can be formed in two ways:
  scale the features first and the finished sum afterwards, `(∑ j, a j · (ξ j · ν j)) · νi`, or scale the
  matrix entry on both sides before the product, `∑ j, ((a j · νi) · ν j) · ξ j`. On the extended reals a
  product does not distribute over a sum in general (an infinite factor against terms of both signs), so
  the law is proved where every factor is a real number: there it is distributivity and commutativity in ℝ.
  What makes the factors real is proved here too: a finite sum of reals is a real, and the quotient of a
  real by a nonzero real is a real.
-/
import Idealize.ShloMosaic.PureOps.Ideal

noncomputable section

namespace Cert.Gcn

open Idealize.ShloMosaic

/-- The embedding of the reals into the extended reals commutes with finite sums. -/
theorem coe_sum {ι : Type} (s : Finset ι) (f : ι → ℝ) :
    ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- A finite sum of extended reals that are all real numbers is a real number. -/
theorem sum_real {ι : Type} (s : Finset ι) (f : ι → EReal) (hf : ∀ k, ∃ r : ℝ, f k = r) :
    ∃ r : ℝ, ∑ k ∈ s, f k = r := by
  choose g hg using hf
  exact ⟨∑ k ∈ s, g k, by rw [coe_sum]; exact Finset.sum_congr rfl fun k _ => hg k⟩

/-- The quotient of a real by a nonzero real is a real: the division's corner at zero is not met. -/
theorem div_real (x y : ℝ) (hy : (y : EReal) ≠ 0) : ∃ r : ℝ, Ideal.div (x : EReal) (y : EReal) = r := by
  have hy' : y ≠ 0 := fun h => hy (by rw [h]; rfl)
  exact ⟨x * (1 / y), by rw [Ideal.div_coe hy', EReal.coe_mul]⟩

/-- THE AGGREGATION LAW. With every factor a real number, scaling the features before the sum and the sum
    after it gives the same value as scaling each matrix entry on both sides before the product. -/
theorem aggregate {n : ℕ} (a ξ ν : Fin n → EReal) (νi : EReal)
    (ha : ∀ j, ∃ r : ℝ, a j = r) (hξ : ∀ j, ∃ r : ℝ, ξ j = r) (hν : ∀ j, ∃ r : ℝ, ν j = r)
    (hνi : ∃ r : ℝ, νi = r) :
    (∑ j, a j * (ξ j * ν j)) * νi = ∑ j, a j * νi * ν j * ξ j := by
  choose a' ha using ha
  choose ξ' hξ using hξ
  choose ν' hν using hν
  obtain ⟨νi', rfl⟩ := hνi
  simp only [ha, hξ, hν, ← EReal.coe_mul, ← coe_sum]
  refine congrArg (fun r : ℝ => (r : EReal)) ?_
  rw [Finset.sum_mul]
  exact Finset.sum_congr rfl fun j _ => by ring

end Cert.Gcn

end
-- ==== Proof.Spec.lean ====
/-
  The graph-convolution layer as functions of its four inputs, and the equality of its two forms.

  With `A` the adjacency matrix, `x` the features, `W` the weights and `b` the bias, write `s p = ∑ k, A p k`
  for the row sums and `ρ p = 1 / s p` for their reciprocals. The reference forms the normalised matrix
  `A i k · ρ i · ρ k` and then `relu((A_norm · x) · W + b)`. The kernel scales the features first, `x k d · ρ k`,
  multiplies by the unscaled matrix, scales the finished aggregate by `ρ i`, and goes on the same way. The two
  are equal whenever the entries of `A` and `x` are real numbers and no row sum is zero: then every `ρ p` is a
  real number, and the aggregate's two forms agree by the aggregation law over the reals.
-/
import proofs.«126367_j48473000903495_1_alg».proof.Proof.RealAlgebra
import Idealize.ShloMosaic.Lib.ValueIdx
import Idealize.ShloMosaic.PureOps.Ideal.Laws

noncomputable section

namespace Cert.Gcn

open Idealize.ShloMosaic Idealize.ShloMosaic.ValueIdx

/-- A matrix of extended reals with literal extents, and a vector. -/
abbrev Mat (a b : ℕ) : Type := (⟨2, ![a, b]⟩ : Shape).Idx → EReal
abbrev Vect (a : ℕ) : Type := (⟨1, ![a]⟩ : Shape).Idx → EReal

/-- The row sums of the adjacency matrix, kept as a column. -/
def rowSums (A : Mat 8192 8192) : Mat 8192 1 := fun i => ∑ k : Fin 8192, A (ix2 (i 0) k)

/-- The reciprocal of row `p`'s sum: the quotient of the float one by the sum. -/
def recip (A : Mat 8192 8192) (p : Fin 8192) : EReal :=
  Ideal.div (Ideal.ofBits .f32 0x3F800000#32) (∑ k : Fin 8192, A (ix2 p k))

/-- The reciprocals as a column. -/
def recipCol (A : Mat 8192 8192) : Mat 8192 1 := fun i => recip A (i 0)

/-- The features with row `k` scaled by the reciprocal of row `k`'s sum. -/
def scaled (x : Mat 8192 256) (A : Mat 8192 8192) : Mat 8192 256 := fun i => x i * recip A (i 0)

/-- What the second kernel region computes from the five arrays it reads: the matrix `A`, the scaled features
    `X`, the column of reciprocals `N`, the weights `Wt` and the bias `B`. -/
def layer (A : Mat 8192 8192) (X : Mat 8192 256) (N : Mat 8192 1) (Wt : Mat 256 256) (B : Vect 256) : Mat 8192 256 :=
  fun i =>
    max ((∑ d : Fin 256, ((∑ k : Fin 8192, A (ix2 (i 0) k) * X (ix2 k d)) * N (ix2 (i 0) (0 : Fin 1))) * Wt (ix2 d (i 1)))
      + B (ix1 (i 1))) (Ideal.ofBits .f32 0x00000000#32)

/-- What the reference computes: the matrix normalised on both sides, times the features, times the weights, plus
    the bias, and the larger of that and zero. -/
def refLayer (x : Mat 8192 256) (A : Mat 8192 8192) (W : Mat 256 256) (b : Vect 256) : Mat 8192 256 := fun i =>
  max ((∑ d : Fin 256, (∑ k : Fin 8192, A (ix2 (i 0) k) * recip A (i 0) * recip A k * x (ix2 k d)) * W (ix2 d (i 1)))
    + b (ix1 (i 1))) (Ideal.ofBits .f32 0x00000000#32)

/-- The float one denotes the real number one. -/
theorem ofBits_one : Ideal.ofBits .f32 0x3F800000#32 = ((1 : ℝ) : EReal) := by
  have h : Ideal.ofBits .f32 0x3F800000#32 = 1 := by
    simp [Ideal.ofBits, Ideal.ieee, -EReal.coe_mul]; norm_num
  rw [h]; rfl

/-- With real entries and a nonzero row sum, the reciprocal of a row sum is a real number. -/
theorem recip_real (A : Mat 8192 8192) (hA : ∀ i, ∃ r : ℝ, A i = r)
    (hdeg : ∀ p : Fin 8192, ∑ k : Fin 8192, A (ix2 p k) ≠ 0) (p : Fin 8192) : ∃ r : ℝ, recip A p = r := by
  obtain ⟨s, hs⟩ := sum_real Finset.univ (fun k : Fin 8192 => A (ix2 p k)) (fun k => hA _)
  have hne : (s : EReal) ≠ 0 := hs ▸ hdeg p
  unfold recip
  rw [hs, ofBits_one]
  exact div_real 1 s hne

/-- THE TWO FORMS AGREE. On real-valued features and adjacency matrix with no zero row sum, the kernel's layer of
    the pre-scaled features and the column of reciprocals is the reference's layer. -/
theorem layer_eq_ref (x : Mat 8192 256) (A : Mat 8192 8192) (W : Mat 256 256) (b : Vect 256)
    (hx : ∀ i, ∃ r : ℝ, x i = r) (hA : ∀ i, ∃ r : ℝ, A i = r)
    (hdeg : ∀ p : Fin 8192, ∑ k : Fin 8192, A (ix2 p k) ≠ 0) :
    layer A (scaled x A) (recipCol A) W b = refLayer x A W b := by
  funext i
  unfold layer refLayer
  refine congrArg₂ max (congrArg₂ (· + ·) (Finset.sum_congr rfl fun d _ => congrArg₂ (· * ·) ?_ rfl) rfl) rfl
  exact aggregate (fun k => A (ix2 (i 0) k)) (fun k => x (ix2 k d)) (fun k => recip A k) (recip A (i 0))
    (fun k => hA _) (fun k => hx _) (fun k => recip_real A hA hdeg k) (recip_real A hA hdeg (i 0))

end Cert.Gcn

end
-- ==== Proof.Domain.lean ====
/-
  What the precondition says of the inputs, read back from its printed form.

  The precondition is a conjunction of five `all`s: every entry of the features, of the adjacency matrix,
  of the weights and of the bias has absolute value below +∞, and every row sum of the adjacency matrix is
  different from zero. Read at the extended reals, an entry whose absolute value is below +∞ is a real
  number (it is neither infinity), and the row sum the last conjunct compares with zero is the plain finite
  sum of the row. So: the features and the adjacency matrix are real-valued, and no row of the adjacency
  matrix sums to zero — which is exactly what keeps the reciprocal row sums real.
-/
import proofs.«126367_j48473000903495_1_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.Gcn

open Idealize.ShloMosaic Idealize.ShloMosaic.ValueIdx Cert.Pre_finite_inputs

/-- The infinity pattern denotes +∞. -/
theorem ofBits_inf : Ideal.ofBits .f32 0x7F800000#32 = ⊤ := by
  simp [Ideal.ofBits, Ideal.ieee]

/-- An extended real whose absolute value compares below +∞ is a real number. -/
theorem real_of_abs_lt (a : EReal)
    (h : Ideal.cmp .olt (max a (-a)) (Ideal.ofBits .f32 0x7F800000#32) = 1#1) : ∃ r : ℝ, a = r := by
  rw [ofBits_inf] at h
  have h' : max a (-a) < ⊤ := of_decide_eq_true ((StableHlo.Predicate.ofBool_eq_one_iff _).1 h)
  induction a using EReal.rec with
  | bot => simp at h'
  | coe r => exact ⟨r, rfl⟩
  | top => simp at h'

/-- Two extended reals that compare unequal are different. -/
theorem ne_of_cmp_une (a b : EReal) (h : Ideal.cmp .une a b = 1#1) : a ≠ b :=
  of_decide_eq_true ((StableHlo.Predicate.ofBool_eq_one_iff _).1 h)

instance : Subsingleton S_.Idx := ⟨fun a b => funext fun d => d.elim0⟩

variable [Cert.Pre_finite_inputs.Facts]
open Cert.Pre_finite_inputs.Facts

/-- The host's sum of the adjacency matrix along its rows, at row `p`, is the finite sum of the row. -/
theorem reduce_row (A : FVec Ideal S8192x8192 .f32) (p : Fin 8192) :
    Host.reduceAdd (F := Ideal) A (constant (F := Ideal) S_ .f32 0x00000000#32) reducesTo_S8192x8192_S8192_d1 h_S_ (ix1 p)
      = ∑ k : Fin 8192, A (ix2 p k) := by
  simp only [Host.reduceAdd, Ideal.hostReduceAdd_def]
  rw [Ideal.hostReduceAdd_single reducesTo_S8192x8192_S8192_d1 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl))

/-- THE DOMAIN. Under the precondition the features and the adjacency matrix are real-valued and no row of
    the adjacency matrix sums to zero. -/
theorem domain (x : FVec Ideal S8192x256 .f32) (A : FVec Ideal S8192x8192 .f32) (W : FVec Ideal S256x256 .f32)
    (b : FVec Ideal S256 .f32) (h : Cert.Pre_finite_inputs.fn (F := Ideal) x A W b = fun _ => 1#1) :
    (∀ i, ∃ r : ℝ, x i = r) ∧ (∀ i, ∃ r : ℝ, A i = r) ∧ (∀ p : Fin 8192, ∑ k : Fin 8192, A (ix2 p k) ≠ 0) := by
  have h0 := congrFun h ix0
  dsimp only [Cert.Pre_finite_inputs.fn, Cert.Pre_finite_inputs.fn_part1] at h0
  obtain ⟨h1, hdeg⟩ := IntOp.andi_eq_one.1 h0
  obtain ⟨h2, -⟩ := IntOp.andi_eq_one.1 h1
  obtain ⟨h3, -⟩ := IntOp.andi_eq_one.1 h2
  obtain ⟨hx, hA⟩ := IntOp.andi_eq_one.1 h3
  refine ⟨fun i => ?_, fun i => ?_, fun p => ?_⟩
  · exact real_of_abs_lt (x i) (Host.reduce_andi_all _ _ _ _ _ hx i)
  · exact real_of_abs_lt (A i) (Host.reduce_andi_all _ _ _ _ _ hA i)
  · have e := Host.reduce_andi_all _ _ _ _ _ hdeg (ix1 p)
    have e' := ne_of_cmp_une _ _ e
    rw [reduce_row A p] at e'
    exact fun h0 => e' (h0.trans Ideal.ofBits_zero_f32.symm)

end Cert.Gcn

end
-- ==== Proof.LibColumn.lean ====
/-
  Two layout operations read at an index, for arrays kept as a column: an `[a]` array viewed as `[a, 1]`,
  and an `[a, 1]` column repeated along a new second axis to `[a, b]`. Both read the operand at the row's
  own position: the unit coordinate carries no information.
-/
import Idealize.ShloMosaic.Lib.ValueLayout
import Idealize.ShloMosaic.Lib.ValueIdx
import Idealize.ShloMosaic.Lib.Pipeline.Value

namespace Cert.Lib

open Idealize.ShloMosaic Idealize.ShloMosaic.ValueIdx

/-- An `[a]` array cast to `[a, 1]` reads, at `(i, u)`, the operand at `i`, whatever the unit coordinate `u`:
    the two indices have the same row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Layer.lean ====
/-
  The second kernel region: the graph-convolution layer on a block of 256 rows.

  Point `t` of the 32-point grid stages rows `256·t …` of the adjacency matrix, the whole scaled feature matrix,
  rows `256·t …` of the column of reciprocals, the whole weight matrix and the whole bias, and writes back rows
  `256·t …` of the result: at `(i, e)` the larger of `0` and
  `(∑ d, ((∑ k, A i k · X k d) · N i) · W d e) + b e`. The changes of float format are the identity on the extended
  reals, the two products are plain sums over the contracted axis, the column and the bias are read at the
  row's and the column's own position. The blocks tile the result.
-/
import proofs.«126367_j48473000903495_1_alg».proof.Proof.Gen.KernelIdeal.Frame
import proofs.«126367_j48473000903495_1_alg».proof.Proof.LibColumn
import proofs.«126367_j48473000903495_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx Cert.Gcn
open Idealize.ShloMosaic.Pipeline (Dat)

theorem lhs_mm1_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_mm1_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_mm1_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_mm1_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

theorem lhs_mm2_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_mm2_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_mm2_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_mm2_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The product into a zero accumulator, read at `(p, d)`: the sum over the contracted axis of left row `p` times right column `d`. -/
theorem mm1_apply (l : FVec Ideal S256x8192 .bf16) (r : FVec Ideal S8192x256 .bf16) (p : Fin 256) (d : Fin 256) :
    matmul dot_S256x8192_S8192x256_S256x256_1_0_0_1_n_n none l r (constant S256x256 .f32 0x00000000#32) (ix2 p d) = ∑ k : Fin 8192, l (ix2 p k) * r (ix2 k d) := by
  simp only [matmul]
  rw [Ideal.matmul_constant_zero_apply, ← Equiv.sum_comp (ValueIdx.contrEquiv1 dot_S256x8192_S8192x256_S256x256_1_0_0_1_n_n 8192 rfl rfl).symm]
  refine Finset.sum_congr rfl fun k _ => ?_
  have hk := ValueIdx.contrEquiv1_symm_val dot_S256x8192_S8192x256_S256x256_1_0_0_1_n_n 8192 rfl rfl k
  have el : dot_S256x8192_S8192x256_S256x256_1_0_0_1_n_n.lhsIdx (ix2 p d) ((ValueIdx.contrEquiv1 dot_S256x8192_S8192x256_S256x256_1_0_0_1_n_n 8192 rfl rfl).symm k) = ix2 p k := funext fun a => Fin.ext (by
    match a with
    | ⟨0, _⟩ => exact lhs_mm1_0 _ _
    | ⟨1, _⟩ => exact (lhs_mm1_1 _ _).trans hk)
  have er : dot_S256x8192_S8192x256_S256x256_1_0_0_1_n_n.rhsIdx (ix2 p d) ((ValueIdx.contrEquiv1 dot_S256x8192_S8192x256_S256x256_1_0_0_1_n_n 8192 rfl rfl).symm k) = ix2 k d := funext fun a => Fin.ext (by
    match a with
    | ⟨0, _⟩ => exact (rhs_mm1_0 _ _).trans hk
    | ⟨1, _⟩ => exact rhs_mm1_1 _ _)
  rw [el, er]

/-- The product into a zero accumulator, read at `(p, d)`: the sum over the contracted axis of left row `p` times right column `d`. -/
theorem mm2_apply (l : FVec Ideal S256x256 .bf16) (r : FVec Ideal S256x256 .bf16) (p : Fin 256) (d : Fin 256) :
    matmul dot_S256x256_S256x256_S256x256_1_0_0_1_n_n none l r (constant S256x256 .f32 0x00000000#32) (ix2 p d) = ∑ k : Fin 256, l (ix2 p k) * r (ix2 k d) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 p d) ((ValueIdx.contrEquiv1 dot_S256x256_S256x256_S256x256_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S256x256_S256x256_S256x256_1_0_0_1_n_n.rhsIdx (ix2 p d) ((ValueIdx.contrEquiv1 dot_S256x256_S256x256_S256x256_1_0_0_1_n_n 256 rfl rfl).symm k) = ix2 k d := funext fun a => Fin.ext (by
    match a with
    | ⟨0, _⟩ => exact (rhs_mm2_0 _ _).trans hk
    | ⟨1, _⟩ => exact rhs_mm2_1 _ _)
  rw [el, er]

/-- The body's stored value at `(p, q)` of its block, from the five staged blocks. -/
theorem pay_apply (x0 : FVec Ideal S256x8192 .f32) (x1 : FVec Ideal S8192x256 .bf16) (x2 : FVec Ideal S256x1 .f32)
    (x3 : FVec Ideal S256x256 .bf16) (x4 : FVec Ideal S256 .f32) (j : S256x256.Idx) :
    k1_pay1 (F := Ideal) x0 x1 x2 x3 x4 j
      = max ((∑ d : Fin 256, ((∑ k : Fin 8192, x0 (ix2 (j 0) k) * x1 (ix2 k d)) * x2 (ix2 (j 0) (0 : Fin 1))) * x3 (ix2 d (j 1)))
          + x4 (ix1 (j 1))) (Ideal.ofBits .f32 0x00000000#32) := by
  obtain ⟨p, q, rfl⟩ : ∃ (p : Fin 256) (q : Fin 256), j = ix2 p q := ⟨j 0, j 1, eq_ix2 j⟩
  unfold k1_pay1
  simp only [shapeCast_self]
  refine congrArg₂ max (congrArg₂ (· + ·) ?_ ?_) rfl
  · refine (mm2_apply _ _ p q).trans (Finset.sum_congr rfl fun d _ => congrArg₂ (· * ·) ?_ rfl)
    refine congrArg₂ (· * ·) (mm1_apply _ _ p d) ?_
    exact Cert.Lib.broadcastTo_a1_ab_apply _ broadcasts_S256x1_S256x256 p d
  · refine (broadcastTo_1b_ab_apply _ broadcasts_S1x256_S256x256 p q).trans ?_
    exact shapeCast_a_1a_apply _ shapeCasts_S256_S1x256 0 q

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the matrix and the column of reciprocals move with the result
    along the rows; the features, the weights and the bias stay at block 0. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 :=
  (by decide +kernel : ∀ t : Fin grid1.N, _)

/-- Every block of rows is some point's. -/
theorem idx_onto : ∀ q : Fin 32, ∃ t : Fin cfg1.N, win1_5.index t = ![q.val, 0] :=
  (by decide +kernel : ∀ q : Fin 32, ∃ t : Fin grid1.N, win1_5.index t = ![q.val, 0])

/-- The body's value on staged blocks that are the arrays' blocks at the result's rows is the layer's value there. -/
theorem layer_block (A : Mat 8192 8192) (X : Mat 8192 256) (N : Mat 8192 1) (Wt : Mat 256 256) (B : Vect 256)
    (x0 : FVec Ideal S256x8192 .f32) (x1 : FVec Ideal S8192x256 .bf16) (x2 : FVec Ideal S256x1 .f32)
    (x3 : FVec Ideal S256x256 .bf16) (x4 : FVec Ideal S256 .f32) (j : S256x256.Idx) (i : S8192x256.Idx)
    (h0 : ∀ k : Fin 8192, x0 (ix2 (j 0) k) = A (ix2 (i 0) k))
    (h1 : ∀ (k : Fin 8192) (d : Fin 256), x1 (ix2 k d) = X (ix2 k d))
    (h2 : x2 (ix2 (j 0) (0 : Fin 1)) = N (ix2 (i 0) (0 : Fin 1)))
    (h3 : ∀ d : Fin 256, x3 (ix2 d (j 1)) = Wt (ix2 d (i 1)))
    (h4 : x4 (ix1 (j 1)) = B (ix1 (i 1))) :
    k1_pay1 (F := Ideal) x0 x1 x2 x3 x4 j = layer A X N Wt B i := by
  rw [pay_apply]
  unfold layer
  simp only [h0, h1, h2, h3, h4]

/-- What point `t` writes back is block `t` of the layer of the five arrays as the region finds them. -/
theorem flushed_eq (c : Dev nD) (t : Fin cfg1.N) :
    (dat1 V c).flushed 5 t = ((cfg1.win 5).blk t).view.read (Elt Ideal)
      (layer (V c main_arg1) (V c main_v7) (V c main_v9) (V c main_v8) (V c main_arg3)) := by
  show (cfg1.win 5).cut (grid1.coords t) ((dat1 V c).after 5 t) = _
  rw [after1_5]
  unfold out1_5
  rw [View.canon_unit_zero hz2]
  simp only [View.ld_unit_zero (S := S256x8192) hz2, View.ld_unit_zero (S := S8192x256) hz2, View.ld_unit_zero (S := S256x1) hz2,
    View.ld_unit_zero (S := S256x256) hz2, View.ld_unit_zero (S := S256) hz1]
  obtain ⟨e00, e01, e10, e11, e20, e21, e30, e31, e40, e51⟩ := idx_facts t
  funext j
  show k1_pay1 (F := Ideal) (iblk1 V c 0 t) (iblk1 V c 1 t) (iblk1 V c 2 t) (iblk1 V c 3 t) (iblk1 V c 4 t) j = _
  refine layer_block (V c main_arg1) (V c main_v7) (V c main_v9) (V c main_v8) (V c main_arg3)
    (iblk1 V c 0 t) (iblk1 V c 1 t) (iblk1 V c 2 t) (iblk1 V c 3 t) (iblk1 V c 4 t) j (((cfg1.win 5).blk t).view.emb j)
    (fun k => ?_) (fun k d => ?_) ?_ (fun d => ?_) ?_
  · show V c main_arg1 (((cfg1.win 0).blk t).view.emb (ix2 (j 0) k)) = _
    refine congrArg (V c main_arg1) (funext fun a => Fin.ext ?_)
    match a with
    | ⟨0, _⟩ => show win1_0.index t (0 : Fin 2) * 256 + 1 * (j 0).val = win1_5.index t (0 : Fin 2) * 256 + 1 * (j 0).val; omega
    | ⟨1, _⟩ => show win1_0.index t (1 : Fin 2) * 8192 + 1 * k.val = k.val; omega
  · show V c main_v7 (((cfg1.win 1).blk t).view.emb (ix2 k d)) = _
    refine congrArg (V c main_v7) (funext fun a => Fin.ext ?_)
    match a with
    | ⟨0, _⟩ => show win1_1.index t (0 : Fin 2) * 8192 + 1 * k.val = k.val; omega
    | ⟨1, _⟩ => show win1_1.index t (1 : Fin 2) * 256 + 1 * d.val = d.val; omega
  · show V c main_v9 (((cfg1.win 2).blk t).view.emb (ix2 (j 0) (0 : Fin 1))) = _
    refine congrArg (V c main_v9) (funext fun a => Fin.ext ?_)
    match a with
    | ⟨0, _⟩ => show win1_2.index t (0 : Fin 2) * 256 + 1 * (j 0).val = win1_5.index t (0 : Fin 2) * 256 + 1 * (j 0).val; omega
    | ⟨1, _⟩ => show win1_2.index t (1 : Fin 2) * 1 + 1 * 0 = 0; omega
  · show V c main_v8 (((cfg1.win 3).blk t).view.emb (ix2 d (j 1))) = _
    refine congrArg (V c main_v8) (funext fun a => Fin.ext ?_)
    match a with
    | ⟨0, _⟩ => show win1_3.index t (0 : Fin 2) * 256 + 1 * d.val = d.val; omega
    | ⟨1, _⟩ => show win1_3.index t (1 : Fin 2) * 256 + 1 * (j 1).val = win1_5.index t (1 : Fin 2) * 256 + 1 * (j 1).val; omega
  · show V c main_arg3 (((cfg1.win 4).blk t).view.emb (ix1 (j 1))) = _
    refine congrArg (V c main_arg3) (funext fun a => Fin.ext ?_)
    match a with
    | ⟨0, _⟩ => show win1_4.index t (0 : Fin 1) * 256 + 1 * (j 1).val = win1_5.index t (1 : Fin 2) * 256 + 1 * (j 1).val; omega

/-- An index of the result is in point `t`'s block iff each coordinate is in the block's range on its axis. -/
theorem mem_blk (t : Fin cfg1.N) (i : S8192x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_v10).slice (win1_5.rect t)).set ↔ _
  rw [View.set_slice_whole, Rect.mem_set_unit]
  exact Iff.rfl

/-- The blocks cover the result: row `r` lies in the block of point `r / 256`. -/
theorem cover (i : S8192x256.Idx) : ∃ t : Fin cfg1.N, (cfg1.win 5).flush t = true ∧ i ∈ ((cfg1.win 5).blk t).view.set := by
  have hi0 : (i 0).val < 8192 := (i 0).isLt
  have hi1 : (i 1).val < 256 := (i 1).isLt
  obtain ⟨t, ht⟩ := idx_onto ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 256 ≤ (i 1).val ∧ (i 1).val < win1_5.index t (1 : Fin 2) * 256 + 256; omega

/-- THE RESULT AFTER THE REGION: the layer of the five arrays as the region found them. -/
theorem final (c : Dev nD) : (dat1 V c).arrAt 5 cfg1.N
    = layer (V c main_arg1) (V c main_v7) (V c main_v9) (V c main_v8) (V c main_arg3) :=
  (dat1 V c).arrAt_eq_of_cover 5 (layer (V c main_arg1) (V c main_v7) (V c main_v9) (V c main_v8) (V c main_arg3))
    (fun t _ => flushed_eq V c t) cover

end Cert.KernelIdeal.Layer

end
-- ==== Proof.RowSum.lean ====
/-
  The first kernel region: the row sums of the adjacency matrix.

  The grid has 32 points; point `t` stages rows `256·t … 256·t + 255` of the matrix (all 8192 columns), sums
  each staged row, and writes the 256 sums back as rows `256·t …` of an `[8192, 1]` column. The blocks tile
  the column, so after the region the column holds, at row `r`, the sum of row `r` of the matrix as the
  region found it.
-/
import proofs.«126367_j48473000903495_1_alg».proof.Proof.Gen.KernelIdeal.Frame
import proofs.«126367_j48473000903495_1_alg».proof.Proof.LibColumn
import proofs.«126367_j48473000903495_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RowSum

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-- The body's stored value at row `p` of its block: the sum of the staged block's row `p`. -/
theorem pay_apply (x0 : FVec Ideal S256x8192 .f32) (j : S256x1.Idx) :
    k0_pay1 (F := Ideal) x0 j = ∑ k : Fin 8192, x0 (ix2 (j 0) k) := by
  obtain ⟨p, q, rfl⟩ : ∃ (p : Fin 256) (q : Fin 1), j = ix2 p q := ⟨j 0, j 1, eq_ix2 j⟩
  unfold k0_pay1
  refine (Cert.Lib.shapeCast_a_a1_apply _ shapeCasts_S256_S256x1 p q).trans ?_
  refine (Ideal.multiReduction_add_single x0 0x00000000#32 reduces_S256x8192_S256 (.inl rfl) rfl (ix1 p)).trans ?_
  exact Finset.sum_congr rfl fun k _ =>
    congrArg x0 (funext fun a => Fin.ext (by match a with | ⟨0, _⟩ => rfl | ⟨1, _⟩ => rfl))

/-- The body's value on a staged block that is the matrix's block at the column's rows is the row sum there. -/
theorem rowsum_block (A : Mat 8192 8192) (x0 : FVec Ideal S256x8192 .f32) (j : S256x1.Idx) (i : S8192x1.Idx)
    (h0 : ∀ k : Fin 8192, x0 (ix2 (j 0) k) = A (ix2 (i 0) k)) :
    k0_pay1 (F := Ideal) x0 j = rowSums A i := by
  rw [pay_apply]
  unfold rowSums
  simp only [h0]

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the matrix window moves with the column window along the rows
    and both stay at block 0 along their second axis. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every block of rows is some point's. -/
theorem idx_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the column of row sums of the matrix as the region finds it. -/
theorem flushed_eq (c : Dev nD) (t : Fin cfg0.N) :
    (dat0 V c).flushed 1 t = ((cfg0.win 1).blk t).view.read (Elt Ideal) (rowSums (V c main_arg1)) := by
  show (cfg0.win 1).cut (grid0.coords t) ((dat0 V c).after 1 t) = _
  rw [after0_1]
  unfold out0_1
  rw [View.canon_unit_zero hz2]
  simp only [View.ld_unit_zero (S := S256x8192) hz2]
  obtain ⟨e0, e1, e2⟩ := idx_facts t
  funext j
  show k0_pay1 (F := Ideal) (iblk0 V c 0 t) j = _
  refine rowsum_block (V c main_arg1) (iblk0 V c 0 t) j (((cfg0.win 1).blk t).view.emb j) (fun k => ?_)
  show V c main_arg1 (((cfg0.win 0).blk t).view.emb (ix2 (j 0) k)) = _
  refine congrArg (V c main_arg1) (funext fun a => Fin.ext ?_)
  match a with
  | ⟨0, _⟩ => show win0_0.index t (0 : Fin 2) * 256 + 1 * (j 0).val = win0_1.index t (0 : Fin 2) * 256 + 1 * (j 0).val; omega
  | ⟨1, _⟩ => show win0_0.index t (1 : Fin 2) * 8192 + 1 * k.val = k.val; omega

/-- An index of the column is in point `t`'s block iff each coordinate is in the block's range on its axis. -/
theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- The blocks cover the column: row `r` lies in the block of point `r / 256`. -/
theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- THE COLUMN AFTER THE REGION: the row sums of the matrix as the region found it. -/
theorem final (c : Dev nD) : (dat0 V c).arrAt 1 cfg0.N = rowSums (V c main_arg1) :=
  (dat0 V c).arrAt_eq_of_cover 1 (rowSums (V c main_arg1)) (fun t _ => flushed_eq V c t) cover

end Cert.KernelIdeal.RowSum

end
-- ==== Proof.Between.lean ====
/-
  Between the two kernel regions: what the second region finds in the arrays it reads.

  The first region leaves the row sums of the adjacency matrix in a column. The host operations after it view the
  column as a vector, divide one by each entry, view the quotients as a column again (the second region's third
  operand), and scale row `k` of the features by the `k`-th quotient (its second operand; the change of float
  format is the identity on the extended reals). The weights change format only, and the adjacency matrix and the
  bias are not written at all. So the second region reads: the matrix and the bias as launched, the features
  scaled by the reciprocal row sums, the column of those reciprocals, and the weights.
-/
import proofs.«126367_j48473000903495_1_alg».proof.Proof.Gen.KernelIdeal.Frame
import proofs.«126367_j48473000903495_1_alg».proof.Proof.RowSum
import proofs.«126367_j48473000903495_1_alg».proof.Proof.LibColumn
import proofs.«126367_j48473000903495_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo Idealize.ShloMosaic.ValueIdx Cert.Gcn

variable (m : (ℓ : Loc nD τ sig) → Buf (Elt Ideal) ℓ) (ρ : Dev nD → PrngReg)

/-! ## After the first region -/

/-- The features are as launched. -/
theorem W1_arg0 (c : Dev nD) : W1 m ρ c (Proc.devRef .tc main_arg0) = m ((c : Thread nD τ).loc main_arg0) :=
  W1_of_ne m ρ c main_arg0 (by decide)
/-- The adjacency matrix is as launched: the first region stages it and never writes it back. -/
theorem W1_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
/-- The weights are as launched. -/
theorem W1_arg2 (c : Dev nD) : W1 m ρ c (Proc.devRef .tc main_arg2) = m ((c : Thread nD τ).loc main_arg2) :=
  W1_of_ne m ρ c main_arg2 (by decide)
/-- The bias is as launched. -/
theorem W1_arg3 (c : Dev nD) : W1 m ρ c (Proc.devRef .tc main_arg3) = m ((c : Thread nD τ).loc main_arg3) :=
  W1_of_ne m ρ c main_arg3 (by decide)
/-- The first region's result: the row sums of the adjacency matrix as launched. -/
theorem W1_v0 (c : Dev nD) : (W1 m ρ c (Proc.devRef .tc main_v0) : Mat 8192 1) = rowSums (m ((c : Thread nD τ).loc main_arg1)) :=
  (W1_arr m ρ c 1).trans (Cert.KernelIdeal.RowSum.final (V0 m ρ) c)

/-! ## The host operations, read at an index -/

/-- One over the row sums, at row `k`. -/
theorem recip_at (c : Dev nD) (k : Fin 8192) :
    Host.divf (F := Ideal) (broadcastInDim S8192 ![] bcast_S_S8192 (constant (F := Ideal) S_ .f32 0x3F800000#32))
        (shapeCast S8192 (W1 m ρ c (Proc.devRef .tc main_v0)) shapeCasts_S8192x1_S8192) (ix1 k)
      = recip (m ((c : Thread nD τ).loc main_arg1)) k := by
  show Ideal.div (Ideal.ofBits .f32 0x3F800000#32) (shapeCast S8192 (W1 m ρ c (Proc.devRef .tc main_v0)) shapeCasts_S8192x1_S8192 (ix1 k)) = _
  unfold recip
  refine congrArg (Ideal.div _) ?_
  refine (Cert.Lib.shapeCast_a1_a_apply _ shapeCasts_S8192x1_S8192 k).trans ?_
  rw [W1_v0 m ρ c]
  rfl

/-- A product of two arrays followed by a change of float format, read at `(k, d)`, when the first array is the
    features there and the second the reciprocal of row `k`'s sum. -/
theorem scaled_at (X Y : FVec Ideal S8192x256 .f32) (x : Mat 8192 256) (A : Mat 8192 8192) (k : Fin 8192) (d : Fin 256)
    (hX : X (ix2 k d) = x (ix2 k d)) (hY : Y (ix2 k d) = recip A k) :
    truncf (F := Ideal) .bf16 (mulf X Y) bitsLt_bf16_f32 (ix2 k d) = scaled x A (ix2 k d) := by
  show X (ix2 k d) * Y (ix2 k d) = x (ix2 k d) * recip A k
  rw [hX, hY]

/-! ## What the second region finds -/

/-- The adjacency matrix as launched. -/
theorem entry_arg1 (c : Dev nD) : V2 m ρ c main_arg1 = m ((c : Thread nD τ).loc main_arg1) := by
  have e : V2 m ρ c main_arg1 = W1 m ρ c (Proc.devRef .tc main_arg1) := by
    show StableHlo.after hostOps1 (W1 m ρ c) (Proc.devRef .tc main_arg1) = _
    after_results
  rw [e, W1_arg1]

/-- The bias as launched. -/
theorem entry_arg3 (c : Dev nD) : V2 m ρ c main_arg3 = m ((c : Thread nD τ).loc main_arg3) := by
  have e : V2 m ρ c main_arg3 = W1 m ρ c (Proc.devRef .tc main_arg3) := by
    show StableHlo.after hostOps1 (W1 m ρ c) (Proc.devRef .tc main_arg3) = _
    after_results
  rw [e, W1_arg3]

/-- The weights: a change of float format of the launched ones, the identity here. -/
theorem entry_v8 (c : Dev nD) : (V2 m ρ c main_v8 : Mat 256 256) = m ((c : Thread nD τ).loc main_arg2) := by
  have e : @Eq (Mat 256 256) (V2 m ρ c main_v8)
      (truncf (F := Ideal) .bf16 (W1 m ρ c (Proc.devRef .tc main_arg2) : FVec Ideal S256x256 .f32) bitsLt_bf16_f32) := by
    show StableHlo.after hostOps1 (W1 m ρ c) (Proc.devRef .tc main_v8) = _
    after_results
  rw [e, W1_arg2]
  rfl

/-- The column of reciprocal row sums. -/
theorem entry_v9 (c : Dev nD) : (V2 m ρ c main_v9 : Mat 8192 1) = recipCol (m ((c : Thread nD τ).loc main_arg1)) := by
  have e : (V2 m ρ c main_v9 : Mat 8192 1) = shapeCast S8192x1
      (Host.divf (F := Ideal) (broadcastInDim S8192 ![] bcast_S_S8192 (constant (F := Ideal) S_ .f32 0x3F800000#32))
        (shapeCast S8192 (W1 m ρ c (Proc.devRef .tc main_v0)) shapeCasts_S8192x1_S8192)) shapeCasts_S8192_S8192x1 := by
    show StableHlo.after hostOps1 (W1 m ρ c) (Proc.devRef .tc main_v9) = _
    after_results
    rfl
  rw [e]
  funext i
  obtain ⟨k, u, rfl⟩ : ∃ (k : Fin 8192) (u : Fin 1), i = ix2 k u := ⟨i 0, i 1, eq_ix2 i⟩
  refine (Cert.Lib.shapeCast_a_a1_apply _ shapeCasts_S8192_S8192x1 k u).trans ?_
  exact recip_at m ρ c k

/-- The features, row `k` scaled by the reciprocal of row `k`'s sum. -/
theorem entry_v7 (c : Dev nD) : (V2 m ρ c main_v7 : Mat 8192 256)
    = scaled (m ((c : Thread nD τ).loc main_arg0)) (m ((c : Thread nD τ).loc main_arg1)) := by
  have e : (V2 m ρ c main_v7 : Mat 8192 256) = truncf .bf16 (mulf (W1 m ρ c (Proc.devRef .tc main_arg0))
      (broadcastInDim S8192x256 ![0, 1] bcast_S8192x1_S8192x256_0_1 (broadcastInDim S8192x1 ![0] bcast_S8192_S8192x1_0
        (Host.divf (F := Ideal) (broadcastInDim S8192 ![] bcast_S_S8192 (constant (F := Ideal) S_ .f32 0x3F800000#32))
          (shapeCast S8192 (W1 m ρ c (Proc.devRef .tc main_v0)) shapeCasts_S8192x1_S8192))))) bitsLt_bf16_f32 := by
    show StableHlo.after hostOps1 (W1 m ρ c) (Proc.devRef .tc main_v7) = _
    after_results
    rfl
  rw [e]
  funext i
  obtain ⟨k, d, rfl⟩ : ∃ (k : Fin 8192) (d : Fin 256), i = ix2 k d := ⟨i 0, i 1, eq_ix2 i⟩
  refine scaled_at (W1 m ρ c (Proc.devRef .tc main_arg0)) _ (m ((c : Thread nD τ).loc main_arg0))
    (m ((c : Thread nD τ).loc main_arg1)) k d (congrFun (W1_arg0 m ρ c) _) ?_
  refine (broadcastInDim_apply _ bcast_S8192x1_S8192x256_0_1 _ (ix2 k d) (ix2 k (0 : Fin 1)) (fun a => match a with
    | ⟨0, _⟩ => by show k.val = if (8192 : Nat) = 1 then 0 else k.val; rw [if_neg (by decide)]
    | ⟨1, _⟩ => by show 0 = if (1 : Nat) = 1 then 0 else d.val; rw [if_pos rfl])).trans ?_
  refine (broadcastInDim_apply _ bcast_S8192_S8192x1_0 _ (ix2 k (0 : Fin 1)) (ix1 k) (fun a => match a with
    | ⟨0, _⟩ => by show k.val = if (8192 : Nat) = 1 then 0 else k.val; rw [if_neg (by decide)])).trans ?_
  exact recip_at m ρ c k

end Cert.KernelIdeal.Between

end
-- ==== Proof.RefValue.lean ====
/-
  The reference, read one operation at a time, is the layer `refLayer` of its four arguments.

  Its row sums are finite sums of a row (the initial value zero adds nothing), the reciprocals are the float one
  divided by them, the matrix is multiplied entry by entry with the reciprocal of its row and then of its column,
  the two products are plain sums over the contracted axis, the bias is read at the column's position, and
  `relu` is the larger of the value and zero.
-/
import proofs.«126367_j48473000903495_1_alg».proof.Proof.Gen.ReferenceIdeal.Read
import proofs.«126367_j48473000903495_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Gcn

/-- The reference's reciprocal row sum at an index whose coordinate is `p`. -/
theorem recip_ref (x1 : Mat 8192 8192) (j : S8192.Idx) (p : Fin 8192) (h : j 0 = p) :
    val_main_v2 (F := Ideal) x1 j = recip x1 p := by
  subst h
  rw [val_main_v2_apply, val_main_v1_apply, val_main_cst_0_apply, val_main_v0_apply, val_main_cst_apply]
  simp only [Ideal.hostDivf_def, Ideal.ofBits_def, Ideal.ofBits_zero_f32, zero_add]
  unfold recip
  exact congrArg (Ideal.div _) (Finset.sum_congr rfl fun k _ => congrArg x1 (funext fun a => Fin.ext (by match a with | ⟨0, _⟩ => rfl | ⟨1, _⟩ => rfl)))

/-- The normalised matrix at `(p, k)`. -/
theorem norm_ref (x1 : Mat 8192 8192) (j : S8192x8192.Idx) (p k : Fin 8192) (h0 : j 0 = p) (h1 : j 1 = k) :
    val_main_v8 (F := Ideal) x1 j = x1 (ix2 p k) * recip x1 p * recip x1 k := by
  subst h0 h1
  rw [val_main_v8_apply, val_main_v5_apply, val_main_v4_apply, val_main_v3_apply, val_main_v7_apply, val_main_v6_apply]
  simp only [Ideal.mulf_def]
  refine congrArg₂ (· * ·) (congrArg₂ (· * ·) ?_ ?_) ?_
  · exact congrArg x1 (funext fun a => Fin.ext (by match a with | ⟨0, _⟩ => rfl | ⟨1, _⟩ => rfl))
  · exact recip_ref x1 _ (j 0) rfl
  · exact recip_ref x1 _ (j 1) rfl

/-- THE REFERENCE'S RESULT is `refLayer` of its arguments. -/
theorem ref_eq (x0 : Mat 8192 256) (x1 : Mat 8192 8192) (x2 : Mat 256 256) (x3 : Vect 256) :
    val_main_v14 (F := Ideal) x0 x1 x2 x3 = refLayer x0 x1 x2 x3 := by
  funext i
  rw [val_main_v14_apply, val_main_v13_apply, val_main_v10_apply, val_main_v12_apply, val_main_v11_apply,
    val_main_call0_v0_apply, val_main_call0_cst_apply]
  unfold refLayer
  simp only [Ideal.maximumf_def, Ideal.addf_def, Ideal.ofBits_def]
  refine congrArg₂ max (congrArg₂ (· + ·) (Finset.sum_congr rfl fun d _ => congrArg₂ (· * ·) ?_ ?_) ?_) rfl
  · rw [val_main_v9_apply]
    refine Finset.sum_congr rfl fun k _ => congrArg₂ (· * ·) ?_ ?_
    · exact norm_ref x1 _ (i 0) k rfl rfl
    · exact congrArg x0 (funext fun a => Fin.ext (by match a with | ⟨0, _⟩ => rfl | ⟨1, _⟩ => rfl))
  · exact congrArg x2 (funext fun a => Fin.ext (by match a with | ⟨0, _⟩ => rfl | ⟨1, _⟩ => rfl))
  · exact congrArg x3 (funext fun a => Fin.ext (by match a with | ⟨0, _⟩ => rfl))

end Cert.ReferenceIdeal.RefValue

end
-- ==== Proof.lean ====
/-
  One layer of a graph convolution, `relu((D⁻¹ A D⁻¹ x) W + b)` with `D` the diagonal of the row sums of `A`:
  a two-region kernel against its array-language reference, equal over the extended reals.

  The reference normalises the adjacency matrix entry by entry, `A i k · ρ i · ρ k` with `ρ p` one over the sum of
  row `p`, and then multiplies by the features and the weights. The kernel never forms the normalised matrix: a first
  region sums the rows, the host divides one by the sums and scales row `k` of the features by `ρ k`, and a second
  region multiplies the unscaled matrix by the scaled features, scales row `i` of the product by `ρ i`, and applies
  the weights, the bias and the maximum with zero. The changes of float format on the way are the identity on the
  extended reals, and a blocked product is the same sum as a whole one.

  The two agree because `(∑ k, A i k · (x k d · ρ k)) · ρ i = ∑ k, ((A i k · ρ i) · ρ k) · x k d`: a product distributed
  over a sum, which on the extended reals needs every factor to be a real number. The precondition gives that: the
  inputs are finite, so the entries of `A` and `x` are real, and no row of `A` sums to zero, so every `ρ p` is a real
  number rather than an infinity. (Without the second part the claim is false: a row summing to zero makes `ρ` infinite,
  and the two groupings then meet `∞ − ∞` differently.)

  The pieces: the kernel's run with its result named (the generated frame's launch, called again); each region's
  result array as one function of the arrays it reads (its blocks tile the array); the host operations between the
  regions read at an index; the reference's run read one operation at a time; the precondition read back; and the
  equality of the two forms over the reals.
-/
import proofs.«126367_j48473000903495_1_alg».proof.Defs
import proofs.«126367_j48473000903495_1_alg».proof.Proof.Gen.Kernel
import proofs.«126367_j48473000903495_1_alg».proof.Proof.Gen.Kernel.Skeleton
import proofs.«126367_j48473000903495_1_alg».proof.Proof.Gen.Kernel.Launch
import proofs.«126367_j48473000903495_1_alg».proof.Proof.Gen.Kernel.Points
import proofs.«126367_j48473000903495_1_alg».proof.Proof.Gen.Kernel.Frame
import proofs.«126367_j48473000903495_1_alg».proof.Proof.Gen.KernelIdeal
import proofs.«126367_j48473000903495_1_alg».proof.Proof.Gen.KernelIdeal.Skeleton
import proofs.«126367_j48473000903495_1_alg».proof.Proof.Gen.KernelIdeal.Launch
import proofs.«126367_j48473000903495_1_alg».proof.Proof.Gen.KernelIdeal.Points
import proofs.«126367_j48473000903495_1_alg».proof.Proof.Gen.KernelIdeal.Frame
import proofs.«126367_j48473000903495_1_alg».proof.Proof.Gen.ReferenceIdeal
import proofs.«126367_j48473000903495_1_alg».proof.Proof.Gen.Pre_finite_inputs
import proofs.«126367_j48473000903495_1_alg».proof.Proof.Gen.ReferenceIdeal.Run
import proofs.«126367_j48473000903495_1_alg».proof.Proof.Gen.ReferenceIdeal.Read
import proofs.«126367_j48473000903495_1_alg».proof.Proof.Spec
import proofs.«126367_j48473000903495_1_alg».proof.Proof.Domain
import proofs.«126367_j48473000903495_1_alg».proof.Proof.KernelRun
import proofs.«126367_j48473000903495_1_alg».proof.Proof.Layer
import proofs.«126367_j48473000903495_1_alg».proof.Proof.Between
import proofs.«126367_j48473000903495_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's layer of the launched arguments: the kernel's result is the second
    region's layer of what the host operations leave (the features scaled by the reciprocal row sums, the column of
    those reciprocals), which is the reference's layer where the features and the matrix are real and no row sums
    to zero; the reference's result is that layer operation by operation. -/
theorem algebraic : Cert.algebraic_KernelIdeal_ReferenceIdeal := by
  intro m ρ m' ρ' hpre hagree
  refine ⟨fun c => Cert.Gcn.refLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Result.run_main (F := Ideal) m ρ)
    obtain ⟨hx, hA, hdeg⟩ := Cert.Gcn.domain _ _ _ _ (hpre c)
    refine (Cert.KernelIdeal.Layer.final (Cert.KernelIdeal.Gen.V2 m ρ) c).trans ?_
    rw [Cert.KernelIdeal.Between.entry_arg1 m ρ c, Cert.KernelIdeal.Between.entry_v7 m ρ c,
      Cert.KernelIdeal.Between.entry_v9 m ρ c, Cert.KernelIdeal.Between.entry_v8 m ρ c,
      Cert.KernelIdeal.Between.entry_arg3 m ρ c]
    exact Cert.Gcn.layer_eq_ref _ _ _ _ hx hA hdeg
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
